-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S128x128x64 : Shape := ⟨3, ![128, 128, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S128x128x64 : S_.BroadcastsInDim S128x128x64 (![] : Fin 0 → Fin S128x128x64.rank)
  reducesTo_S128x128x64_S_d0_1_2 : S128x128x64.ReducesTo [0, 1, 2] S_

variable [Facts]

def fn {F : FTy → Type} [FloatOps F] (main_arg0 : FVec F S128x64 .f32) (main_arg1 : FVec F S128x128x64 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S128x128x64 .f32 := Host.absf main_arg1
  let main_cst_0 : FVec F S_ .f32 := constant S_ .f32 0x7F800000#32
  let main_v5 : FVec F S128x128x64 .f32 := broadcastInDim S128x128x64 ![] bcast_S_S128x128x64 main_cst_0
  let main_v6 : IVec S128x128x64 1 := cmpf .olt main_v4 main_v5
  let main_c_1 : IVec S_ 1 := constantI S_ 1 1#1
  let main_v7 : IVec S_ 1 := (fun x v => Host.reduce IntOp.andi x v reducesTo_S128x128x64_S_d0_1_2 h_S_) main_v6 main_c_1
  let main_v8 : IVec S_ 1 := andi main_v3 main_v7
  main_v8
-- ==== Kernel.lean ====
abbrev S128x64 : Shape := ⟨2, ![128, 64]⟩
abbrev S128x128x64 : Shape := ⟨3, ![128, 128, 64]⟩
abbrev S128x128x128 : Shape := ⟨3, ![128, 128, 128]⟩
abbrev S32x128x64 : Shape := ⟨3, ![32, 128, 64]⟩
abbrev S128x32x128 : Shape := ⟨3, ![128, 32, 128]⟩
abbrev S128 : Shape := ⟨1, ![128]⟩
abbrev S128x1 : Shape := ⟨2, ![128, 1]⟩
abbrev S32x128 : Shape := ⟨2, ![32, 128]⟩
abbrev S4096x64 : Shape := ⟨2, ![4096, 64]⟩
abbrev S128x4096 : Shape := ⟨2, ![128, 4096]⟩
abbrev S1x32x128 : Shape := ⟨3, ![1, 32, 128]⟩
abbrev S128x1x1 : Shape := ⟨3, ![128, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S128x64, .f32⟩
  | .hbm, ⟨1, _⟩ => ⟨S128x128x64, .f32⟩
  | .hbm, ⟨2, _⟩ => ⟨S128x128x128, .f32⟩
  | .local _ .vmem, ⟨0, _⟩ => ⟨S128x64, .f32⟩
  | .local _ .vmem, ⟨1, _⟩ => ⟨S32x128x64, .f32⟩
  | .local _ .vmem, ⟨2, _⟩ => ⟨S32x128x64, .f32⟩
  | .local _ .vmem, ⟨3, _⟩ => ⟨S128x32x128, .f32⟩
  | .local _ .vmem, ⟨4, _⟩ => ⟨S128x32x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x64_S128x64_0_0 : ∀ a, (![0, 0] : Fin 2 → Nat) a + S128x64.size a ≤ S128x64.size a
  h_S128x64 : 0 < S128x64.numel
  inb_S32x128x64_S32x128x64_0_0_0 : ∀ a, (![0, 0, 0] : Fin 3 → Nat) a + S32x128x64.size a ≤ S32x128x64.size a
  h_S32x128x64 : 0 < S32x128x64.numel
  reduces_S128x64_S128 : S128x64.Reduces [1] S128
  shapeCasts_S128_S128x1 : S128.ShapeCasts S128x1
  reduces_S32x128x64_S32x128 : S32x128x64.Reduces [2] S32x128
  shapeCasts_S32x128x64_S4096x64 : S32x128x64.ShapeCasts S4096x64
  bitsLt_bf16_f32 : FTy.bits .bf16 < FTy.bits .f32
  shapeCasts_S128x4096_S128x32x128 : S128x4096.ShapeCasts S128x32x128
  shapeCasts_S32x128_S1x32x128 : S32x128.ShapeCasts S1x32x128
  shapeCasts_S128x1_S128x1x1 : S128x1.ShapeCasts S128x1x1
  broadcasts_S1x32x128_S128x32x128 : S1x32x128.Broadcasts S128x32x128
  broadcasts_S128x1x1_S128x32x128 : S128x1x1.Broadcasts S128x32x128
  inb_S128x32x128_S128x32x128_0_0_0 : ∀ a, (![0, 0, 0] : Fin 3 → Nat) a + S128x32x128.size a ≤ S128x32x128.size a
  h_S128x32x128 : 0 < S128x32x128.numel
  dot_S128x64_S4096x64_S128x4096_1_1_0_0_n_n_wf : DotDims.WF S128x64 S4096x64 S128x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x64.size a ≤ S128x128x64.size a
  hwx0_1 : ∀ i : grid0.Coords, EltTy.bits .f32 = 32 ∨ (Rect.block (s := S128x128x64) S32x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x128.size a ≤ S128x128x128.size a
  hwx0_2 : ∀ i : grid0.Coords, EltTy.bits .f32 = 32 ∨ (Rect.block (s := S128x128x128) S128x32x128.size (cc0_transform_2 i) (hinb0_2 i)).WholeWords (EltTy.packing .f32)

variable [Facts₀]

def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf

abbrev win0_0 : Pipeline.Window sig grid0 :=
  Pipeline.Window.ofSpec (Memref.whole main_arg0) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x64 : Shape := ⟨2, ![128, 64]⟩
abbrev S128x128x64 : Shape := ⟨3, ![128, 128, 64]⟩
abbrev S1x128x128x64 : Shape := ⟨4, ![1, 128, 128, 64]⟩
abbrev S128x1x1x64 : Shape := ⟨4, ![128, 1, 1, 64]⟩
abbrev S128x128x128x64 : Shape := ⟨4, ![128, 128, 128, 64]⟩
abbrev S_ : Shape := ⟨0, ![]⟩
abbrev S128x128x128 : Shape := ⟨3, ![128, 128, 128]⟩

abbrev nBuf : Space → Nat
  | .hbm => 10
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x128x64, .f32⟩
  | .hbm, ⟨2, _⟩ => ⟨S1x128x128x64, .f32⟩
  | .hbm, ⟨3, _⟩ => ⟨S128x1x1x64, .f32⟩
  | .hbm, ⟨4, _⟩ => ⟨S128x128x128x64, .f32⟩
  | .hbm, ⟨5, _⟩ => ⟨S128x128x128x64, .f32⟩
  | .hbm, ⟨6, _⟩ => ⟨S128x128x128x64, .f32⟩
  | .hbm, ⟨7, _⟩ => ⟨S128x128x128x64, .f32⟩
  | .hbm, ⟨8, _⟩ => ⟨S_, .f32⟩
  | .hbm, ⟨9, _⟩ => ⟨S128x128x128, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S128x128x64_S1x128x128x64_1_2_3 : S128x128x64.BroadcastsInDim S1x128x128x64 (![1, 2, 3] : Fin 3 → Fin S1x128x128x64.rank)
  bcast_S128x64_S128x1x1x64_0_3 : S128x64.BroadcastsInDim S128x1x1x64 (![0, 3] : Fin 2 → Fin S128x1x1x64.rank)
  bcast_S1x128x128x64_S128x128x128x64_0_1_2_3 : S1x128x128x64.BroadcastsInDim S128x128x128x64 (![0, 1, 2, 3] : Fin 4 → Fin S128x128x128x64.rank)
  bcast_S128x1x1x64_S128x128x128x64_0_1_2_3 : S128x1x1x64.BroadcastsInDim S128x128x128x64 (![0, 1, 2, 3] : Fin 4 → Fin S128x128x128x64.rank)
  reducesTo_S128x128x128x64_S128x128x128_d3 : S128x128x128x64.ReducesTo [3] S128x128x128
  h_S_ : 0 < S_.numel

variable [Facts₀]

class Facts : Prop extends Facts₀ where

variable [Facts]
-- ==== Proof.SqDistLaw.lean ====
/-
  The squared Euclidean distance between a codebook vector `w` and an input vector `x`, over the
  extended reals, in its two arrangements:

    the direct one,     `0 + ∑ d, (w d - x d) * (w d - x d)`,
    the expanded one,   `(∑ d, w d * w d + ∑ d, x d * x d) - 2 * ∑ d, x d * w d`.

  The two agree when every entry is a real number: then each side is the coercion of a real sum, and in
  the reals `(w - x)² = w² + x² - 2·x·w` term by term, the sum splitting over the three pieces. On the
  extended reals the expansion is NOT an identity (at `w d = ⊤` the direct term is `⊤` while the
  expanded side meets `⊤ - ⊤`), so finiteness of the entries is used, and only here.

  Then the two arrangements as functions of whole arrays: for an input array `x : [128, 64]` and a codebook
  `w : [128, 128, 64]` the distance array `[128, 128, 128]` at `(b, r, c)` pairs row `b` of `x` with the
  codebook vector at `(r, c)`.
-/
import Idealize.ShloMosaic.PureOps.Ideal
import Idealize.ShloMosaic.PureOps.Ideal.Laws
import Idealize.ShloMosaic.Lib.ValueIdx

noncomputable section

open scoped BigOperators

namespace Cert.SqDist

open Idealize.ShloMosaic Idealize.ShloMosaic.ValueIdx

/-- The pattern `0x40000000` denotes the real number two. -/
theorem ofBits_two : Ideal.ofBits .f32 0x40000000#32 = ((2 : ℝ) : EReal) := by
  simp [Ideal.ofBits, Ideal.ieee, -EReal.coe_mul]; norm_num

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The expansion of the square, summed: for real entries the expanded arrangement is the direct one. -/
theorem expand_sq {ι : Type*} [Fintype ι] (a b : ι → EReal)
    (ha : ∀ d, ∃ r : ℝ, a d = r) (hb : ∀ d, ∃ r : ℝ, b d = r) :
    (∑ d, a d * a d + ∑ d, b d * b d) - ((2 : ℝ) : EReal) * ∑ d, b d * a d
      = 0 + ∑ d, (a d - b d) * (a d - b d) := by
  choose a' ha' using ha
  choose b' hb' using hb
  have e1 : ∑ d, a d * a d = ((∑ d, a' d * a' d : ℝ) : EReal) := by
    rw [coe_sum]; exact Finset.sum_congr rfl fun d _ => by rw [ha' d, EReal.coe_mul]
  have e2 : ∑ d, b d * b d = ((∑ d, b' d * b' d : ℝ) : EReal) := by
    rw [coe_sum]; exact Finset.sum_congr rfl fun d _ => by rw [hb' d, EReal.coe_mul]
  have e3 : ∑ d, b d * a d = ((∑ d, b' d * a' d : ℝ) : EReal) := by
    rw [coe_sum]; exact Finset.sum_congr rfl fun d _ => by rw [ha' d, hb' d, EReal.coe_mul]
  have e4 : ∑ d, (a d - b d) * (a d - b d) = ((∑ d, (a' d - b' d) * (a' d - b' d) : ℝ) : EReal) := by
    rw [coe_sum]; exact Finset.sum_congr rfl fun d _ => by rw [ha' d, hb' d, EReal.coe_mul, EReal.coe_sub]
  rw [e1, e2, e3, e4, zero_add, ← EReal.coe_add, ← EReal.coe_mul, ← EReal.coe_sub]
  refine congrArg _ ?_
  rw [Finset.mul_sum, ← Finset.sum_add_distrib, ← Finset.sum_sub_distrib]
  exact Finset.sum_congr rfl fun d _ => by ring

/-! ## The two arrangements over whole arrays -/

abbrev SX : Shape := ⟨2, ![128, 64]⟩
abbrev SW : Shape := ⟨3, ![128, 128, 64]⟩
abbrev SO : Shape := ⟨3, ![128, 128, 128]⟩

/-- The direct arrangement: at `(b, r, c)`, zero plus the sum over the 64 features of the squared
    differences between the codebook vector at `(r, c)` and row `b` of the input. -/
def direct (x : FVec Ideal SX .f32) (w : FVec Ideal SW .f32) : FVec Ideal SO .f32 := fun i =>
  Ideal.ofBits .f32 0x00000000#32
    + ∑ d : Fin 64, (w (ix3 (i 1) (i 2) d) - x (ix2 (i 0) d)) * (w (ix3 (i 1) (i 2) d) - x (ix2 (i 0) d))

/-- The expanded arrangement: at `(b, r, c)`, the codebook vector's squared norm plus the input row's squared
    norm, minus twice their inner product. -/
def expanded (x : FVec Ideal SX .f32) (w : FVec Ideal SW .f32) : FVec Ideal SO .f32 := fun i =>
  (∑ d : Fin 64, w (ix3 (i 1) (i 2) d) * w (ix3 (i 1) (i 2) d) + ∑ d : Fin 64, x (ix2 (i 0) d) * x (ix2 (i 0) d))
    - Ideal.ofBits .f32 0x40000000#32 * ∑ d : Fin 64, x (ix2 (i 0) d) * w (ix3 (i 1) (i 2) d)

/-- On arrays whose every entry is a real number the two arrangements are one function. -/
theorem expanded_eq_direct (x : FVec Ideal SX .f32) (w : FVec Ideal SW .f32)
    (hx : ∀ j, ∃ r : ℝ, x j = r) (hw : ∀ j, ∃ r : ℝ, w j = r) : expanded x w = direct x w := by
  funext i
  unfold expanded direct
  rw [ofBits_two, Ideal.ofBits_zero_f32]
  exact expand_sq (fun d => w (ix3 (i 1) (i 2) d)) (fun d => x (ix2 (i 0) d)) (fun d => hw _) (fun d => hx _)

end Cert.SqDist

end
-- ==== Proof.RefDirect.lean ====
/-
  The reference computes the DIRECT arrangement of the squared distance: it broadcasts the codebook
  `w : [128, 128, 64]` and the input `x : [128, 64]` to `[128, 128, 128, 64]`, subtracts, squares and sums the
  last axis from zero. Read at an output index `(b, r, c)`, the broadcast codebook at `(b, r, c, d)` is
  `w (r, c, d)` and the broadcast input there is `x (b, d)`, so the element is
  `0 + ∑ d, (w (r, c, d) - x (b, d)) * (w (r, c, d) - x (b, d))`.
-/
import proofs.«139237_j85040352461292_1_alg».proof.Proof.Gen.ReferenceIdeal.Read
import proofs.«139237_j85040352461292_1_alg».proof.Proof.SqDistLaw

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Through the two codebook broadcasts, the summand's index `(b, r, c, d)` reads the codebook at `(r, c, d)`. -/
theorem codebook_idx (i : S128x128x128.Idx) (k : Fin 64) :
    idx_main_v0 (idx_main_v2 (idx_main_v6 i k)) = ix3 (i 1) (i 2) k :=
  funext fun a => Fin.ext (by match a with | ⟨0, _⟩ => rfl | ⟨1, _⟩ => rfl | ⟨2, _⟩ => rfl)

/-- Through the two input broadcasts, the summand's index `(b, r, c, d)` reads the input at `(b, d)`. -/
theorem input_idx (i : S128x128x128.Idx) (k : Fin 64) :
    idx_main_v1 (idx_main_v3 (idx_main_v6 i k)) = ix2 (i 0) k :=
  funext fun a => Fin.ext (by match a with | ⟨0, _⟩ => rfl | ⟨1, _⟩ => rfl)

/-- The reference's result is the direct arrangement of its two arguments. -/
theorem result_direct (x0 : FVec Ideal S128x64 .f32) (x1 : FVec Ideal S128x128x64 .f32) :
    val_main_v6 (F := Ideal) x0 x1 = Cert.SqDist.direct x0 x1 := by
  funext i
  rw [val_main_v6_apply]
  unfold Cert.SqDist.direct
  refine congrArg₂ (· + ·) rfl (Finset.sum_congr rfl fun k _ => ?_)
  rw [val_main_v5_apply, val_main_v4_apply, val_main_v2_apply, val_main_v3_apply, val_main_v0_apply,
    val_main_v1_apply, codebook_idx, input_idx]
  rfl

end Cert.ReferenceIdeal.RefValue

end
-- ==== Proof.LibUnitAxes.lean ====
/-
  Layout operations over UNIT AXES read at an index given by coordinates, at the ranks a keep-dims reduction
  followed by a rank-3 broadcast meets: a vector `[a]` cast to a column `[a, 1]`, a column cast to `[a, 1, 1]`,
  and the two rank-3 broadcasts that repeat a value along the axes on which the operand has extent one —
  `[a, 1, 1] → [a, b, c]` (one value per leading coordinate) and `[1, b, c] → [a, b, c]` (one plane repeated).
  Each is the library's general lemma (a shape cast keeps the row-major position; a broadcast reads coordinate
  zero on a unit axis) with both indices written by coordinates, so that it applies by unification.
-/
import Idealize.ShloMosaic.Lib.Pipeline.Value
import Idealize.ShloMosaic.Lib.ValueIdx

namespace Cert.UnitAxes

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a, 1, 1]` reads, at `(i, u, v)`, the operand at `(i, w)`, whatever the unit
    coordinates. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v w : Fin 1) :
    shapeCast ⟨3, ![a, 1, 1]⟩ x h (ix3 i u v) = x (ix2 i w) :=
  shapeCast_apply x h _ _ (by
    have hu : u.val = 0 := by omega
    have hv : v.val = 0 := by omega
    have hw : w.val = 0 := by omega
    rw [Shape.rowMajor_val_three, Shape.rowMajor_val_two]
    show i.val * 1 + w.val = (i.val * 1 + u.val) * 1 + v.val
    rw [hu, hv, hw, Nat.mul_one, Nat.add_zero, Nat.mul_one, Nat.add_zero])

/-- An `[a, 1, 1]` array broadcast to `[a, b, c]` reads, at `(i, j, k)`, the operand's one value for `i`. -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) := by
  refine broadcastTo_apply x h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, j, k)`, the operand's one plane at `(j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.UnitAxes
-- ==== Proof.KernelPayload.lean ====
/-
  What the kernel body stores, read at one index of its `[128, 32, 128]` block. From the input block
  `x : [128, 64]` and a codebook block `w : [32, 128, 64]` (32 codebook rows) the body forms

    the input rows' squared norms     `∑ d, x (b, d) * x (b, d)`           (a lane sum, kept as a column),
    the codebook vectors' squared norms `∑ d, w (r, c, d) * w (r, c, d)`   (a lane sum over the last axis),
    the inner products                `∑ d, x (b, d) * w (r, c, d)`        (one matrix product of `x` with the
                                       codebook block flattened to `[4096, 64]`, contracted over the features,
                                       into a zero accumulator; the result `[128, 4096]` viewed `[128, 32, 128]`),

  and stores `(norm_w + norm_x) - 2 * inner`, the two norms broadcast over the axes they do not depend on.
  The flattening pairs row `q = r * 128 + c` of the flat codebook with the vector at `(r, c)`; the change of
  format before the product is the identity on the extended reals. So at `(b, r, c)` the stored value is the
  EXPANDED arrangement of the squared distance between input row `b` and the block's vector `(r, c)`.
-/
import proofs.«139237_j85040352461292_1_alg».proof.Proof.Gen.KernelIdeal.Skeleton
import proofs.«139237_j85040352461292_1_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The two lane sums -/

/-- The sum of a `[128, 64]` array over its last axis, at row `b`. -/
theorem sum_last_2 (v : FVec Ideal S128x64 .f32) (h : S128x64.Reduces [1] S128) (hφ : FKind.Formats .f32)
    (hacc : (0x00000000#32 : BitVec 32) = FKind.add.neutral .f32 hφ) (b : Fin 128) :
    multiReduction (F := Ideal) .add [1] S128 v 0x00000000#32 h hφ hacc (ix1 b) = ∑ k : Fin 64, v (ix2 b k) :=
  (Ideal.multiReduction_add_single v 0x00000000#32 h hφ hacc (ix1 b)).trans
    (Finset.sum_congr rfl fun k _ => congrArg v (funext fun a => Fin.ext (by
      match a with | ⟨0, _⟩ => rfl | ⟨1, _⟩ => rfl)))

/-- The sum of a `[32, 128, 64]` array over its last axis, at `(r, c)`. -/
theorem sum_last_3 (v : FVec Ideal S32x128x64 .f32) (h : S32x128x64.Reduces [2] S32x128) (hφ : FKind.Formats .f32)
    (hacc : (0x00000000#32 : BitVec 32) = FKind.add.neutral .f32 hφ) (r : Fin 32) (c : Fin 128) :
    multiReduction (F := Ideal) .add [2] S32x128 v 0x00000000#32 h hφ hacc (ix2 r c) = ∑ k : Fin 64, v (ix3 r c k) :=
  (Ideal.multiReduction_add_single v 0x00000000#32 h hφ hacc (ix2 r c)).trans
    (Finset.sum_congr rfl fun k _ => congrArg v (funext fun a => Fin.ext (by
      match a with | ⟨0, _⟩ => rfl | ⟨1, _⟩ => rfl | ⟨2, _⟩ => rfl)))

/-! ## The two re-layings around the matrix product -/

/-- The codebook block flattened to `[4096, 64]`: row `r * 128 + c` is the vector at `(r, c)`. -/
theorem flat_codebook {α : Type} (w : S32x128x64.Idx → α) (h : S32x128x64.ShapeCasts S4096x64)
    (r : Fin 32) (c : Fin 128) (k : Fin 64) (q : Fin 4096) (hq : q.val = r.val * 128 + c.val) :
    shapeCast S4096x64 w h (ix2 q k) = w (ix3 r c k) :=
  shapeCast_apply w h _ _ (by
    rw [Shape.rowMajor_val_three, Shape.rowMajor_val_two]
    show (r.val * 128 + c.val) * 64 + k.val = q.val * 64 + k.val
    rw [hq])

/-- The product `[128, 4096]` viewed `[128, 32, 128]`: `(b, r, c)` is column `r * 128 + c` of row `b`. -/
theorem unflat_product {α : Type} (p : S128x4096.Idx → α) (h : S128x4096.ShapeCasts S128x32x128)
    (b : Fin 128) (r : Fin 32) (c : Fin 128) (q : Fin 4096) (hq : q.val = r.val * 128 + c.val) :
    shapeCast S128x32x128 p h (ix3 b r c) = p (ix2 b q) :=
  shapeCast_apply p h _ _ (by
    rw [Shape.rowMajor_val_three, Shape.rowMajor_val_two]
    show b.val * 4096 + q.val = (b.val * 32 + r.val) * 128 + c.val
    rw [hq]; omega)

/-! ## The matrix product at an index

Both operands are contracted over their second axis: the left operand's first axis is the result's first, the
right operand's first axis the result's second. One lemma per operand axis, then the sum re-indexed by the one
contraction coordinate. -/

theorem lhs_0 (i : S128x4096.Idx) (q : dot_S128x64_S4096x64_S128x4096_1_1_0_0_n_n.contr.Idx) :
    (dot_S128x64_S4096x64_S128x4096_1_1_0_0_n_n.lhsIdx i q 0).val = (i 0).val := by
  unfold DotDims.lhsIdx
  rw [dif_neg (show ¬(0 : Fin S128x64.rank) ∈ dot_S128x64_S4096x64_S128x4096_1_1_0_0_n_n.lhsBatch by decide),
    dif_pos (show (0 : Fin S128x64.rank) ∈ dot_S128x64_S4096x64_S128x4096_1_1_0_0_n_n.lhsNonContracting by decide)]
  rfl

theorem lhs_1 (i : S128x4096.Idx) (q : dot_S128x64_S4096x64_S128x4096_1_1_0_0_n_n.contr.Idx) :
    (dot_S128x64_S4096x64_S128x4096_1_1_0_0_n_n.lhsIdx i q 1).val = (q ⟨0, by decide⟩).val :=
  dot_S128x64_S4096x64_S128x4096_1_1_0_0_n_n.lhsIdx_val_of_single rfl i q

theorem rhs_0 (i : S128x4096.Idx) (q : dot_S128x64_S4096x64_S128x4096_1_1_0_0_n_n.contr.Idx) :
    (dot_S128x64_S4096x64_S128x4096_1_1_0_0_n_n.rhsIdx i q 0).val = (i 1).val := by
  unfold DotDims.rhsIdx
  rw [dif_neg (show ¬(0 : Fin S4096x64.rank) ∈ dot_S128x64_S4096x64_S128x4096_1_1_0_0_n_n.rhsBatch by decide),
    dif_pos (show (0 : Fin S4096x64.rank) ∈ dot_S128x64_S4096x64_S128x4096_1_1_0_0_n_n.rhsNonContracting by decide)]
  rfl

theorem rhs_1 (i : S128x4096.Idx) (q : dot_S128x64_S4096x64_S128x4096_1_1_0_0_n_n.contr.Idx) :
    (dot_S128x64_S4096x64_S128x4096_1_1_0_0_n_n.rhsIdx i q 1).val = (q ⟨0, by decide⟩).val :=
  dot_S128x64_S4096x64_S128x4096_1_1_0_0_n_n.rhsIdx_val_of_single rfl i q

/-- The product into a zero accumulator, at `(b, q)`: row `b` of the left operand against row `q` of the right. -/
theorem product_apply (l : FVec Ideal S128x64 .bf16) (rr : FVec Ideal S4096x64 .bf16) (b : Fin 128) (q : Fin 4096) :
    matmul (F := Ideal) dot_S128x64_S4096x64_S128x4096_1_1_0_0_n_n none l rr (constant S128x4096 .f32 0x00000000#32) (ix2 b q)
      = ∑ k : Fin 64, l (ix2 b k) * rr (ix2 q k) := by
  simp only [matmul]
  rw [Ideal.matmul_constant_zero_apply,
    ← Equiv.sum_comp (contrEquiv1 dot_S128x64_S4096x64_S128x4096_1_1_0_0_n_n 64 rfl rfl).symm]
  refine Finset.sum_congr rfl fun k _ => ?_
  have hk := contrEquiv1_symm_val dot_S128x64_S4096x64_S128x4096_1_1_0_0_n_n 64 rfl rfl k
  have el : dot_S128x64_S4096x64_S128x4096_1_1_0_0_n_n.lhsIdx (ix2 b q)
      ((contrEquiv1 dot_S128x64_S4096x64_S128x4096_1_1_0_0_n_n 64 rfl rfl).symm k) = ix2 b k :=
    funext fun a => Fin.ext (by
      match a with
      | ⟨0, _⟩ => exact lhs_0 _ _
      | ⟨1, _⟩ => exact (lhs_1 _ _).trans hk)
  have er : dot_S128x64_S4096x64_S128x4096_1_1_0_0_n_n.rhsIdx (ix2 b q)
      ((contrEquiv1 dot_S128x64_S4096x64_S128x4096_1_1_0_0_n_n 64 rfl rfl).symm k) = ix2 q k :=
    funext fun a => Fin.ext (by
      match a with
      | ⟨0, _⟩ => exact rhs_0 _ _
      | ⟨1, _⟩ => exact (rhs_1 _ _).trans hk)
  rw [el, er]

/-! ## The stored value at an index -/

/-- The body's stored value at `(b, r, c)`: the expanded squared distance between input row `b` and the
    codebook block's vector at `(r, c)`. -/
theorem pay_apply (x : FVec Ideal S128x64 .f32) (w : FVec Ideal S32x128x64 .f32) (b : Fin 128) (r : Fin 32) (c : Fin 128) :
    k0_pay1 (F := Ideal) x w (ix3 b r c)
      = (∑ d : Fin 64, w (ix3 r c d) * w (ix3 r c d) + ∑ d : Fin 64, x (ix2 b d) * x (ix2 b d))
        - Ideal.ofBits .f32 0x40000000#32 * ∑ d : Fin 64, x (ix2 b d) * w (ix3 r c d) := by
  have hq : (⟨r.val * 128 + c.val, by have := r.isLt; have := c.isLt; omega⟩ : Fin 4096).val = r.val * 128 + c.val := rfl
  unfold k0_pay1
  refine congrArg₂ (· - ·) (congrArg₂ (· + ·) ?_ ?_) (congrArg₂ (· * ·) rfl ?_)
  · -- the codebook norms: one plane repeated over the 128 input rows
    refine (Cert.UnitAxes.broadcastTo_1bc_abc_apply _ _ b r c).trans ?_
    refine (shapeCast_ab_1ab_apply _ _ (0 : Fin 1) r c).trans ?_
    exact sum_last_3 _ _ _ _ r c
  · -- the input norms: one value per input row
    refine (Cert.UnitAxes.broadcastTo_a11_abc_apply _ _ b r c).trans ?_
    refine (Cert.UnitAxes.shapeCast_a1_a11_apply _ _ b (0 : Fin 1) (0 : Fin 1) (0 : Fin 1)).trans ?_
    refine (Cert.UnitAxes.shapeCast_a_a1_apply _ _ b (0 : Fin 1)).trans ?_
    exact sum_last_2 _ _ _ _ b
  · -- the inner products
    refine (unflat_product _ _ b r c _ hq).trans ?_
    refine (product_apply _ _ b _).trans ?_
    refine Finset.sum_congr rfl fun k _ => congrArg₂ (· * ·) rfl ?_
    exact flat_codebook w _ r c k _ hq

end Cert.KernelIdeal.Payload

end
-- ==== Proof.KernelArray.lean ====
/-
  From the kernel's blocks to its whole result array. The grid has four points; point `t` stages the whole input
  `x : [128, 64]` (its one block, at every point), rows `32 t … 32 t + 31` of the codebook `w : [128, 128, 64]`,
  and writes back the slab `[:, 32 t … 32 t + 31, :]` of the result `[128, 128, 128]`. What it writes at
  `(b, r, c)` of the slab is the expanded squared distance between input row `b` and the staged codebook vector
  `(r, c)`, which is the codebook's vector `(32 t + r, c)`: so every point writes its slab of ONE array, the
  expanded arrangement of the whole arguments. The four slabs tile the second axis (row `R` lies in the slab of
  point `R / 32`), so the result array ends holding that arrangement everywhere.
-/
import proofs.«139237_j85040352461292_1_alg».proof.Proof.Gen.KernelIdeal.Value
import proofs.«139237_j85040352461292_1_alg».proof.Proof.KernelPayload
import proofs.«139237_j85040352461292_1_alg».proof.Proof.SqDistLaw

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The block indices at point `t`: the input's is always `(0, 0)`; the codebook's moves along its first axis and
    the result's along its second, both with `t`. -/
theorem block_indices : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- Every slab of the result's second axis is some point's. -/
theorem slab_onto : ∀ q : Fin 4, ∃ t : Fin cfg0.N, win0_2.index t = ![0, q.val, 0] :=
  (by decide +kernel : ∀ q : Fin 4, ∃ t : Fin grid0.N, win0_2.index t = ![0, q.val, 0])

/-! ## The staged blocks and the argument arrays, at their literal types -/

abbrev xblk (c : Dev nD) (t : Fin cfg0.N) : Vec Ideal S128x64 .f32 := iblk m c 0 t
abbrev wblk (c : Dev nD) (t : Fin cfg0.N) : Vec Ideal S32x128x64 .f32 := iblk m c 1 t
abbrev xarr (c : Dev nD) : Vec Ideal S128x64 .f32 := V m c main_arg0
abbrev warr (c : Dev nD) : Vec Ideal S128x128x64 .f32 := V m c main_arg1

/-- The staged input block is the whole input. -/
theorem xblk_apply (c : Dev nD) (t : Fin cfg0.N) (y : S128x64.Idx) : xblk m c t y = xarr m c y := by
  show V m c main_arg0 (((cfg0.win 0).blk t).view.emb y) = V m c main_arg0 y
  obtain ⟨e0, e1, -⟩ := block_indices t
  refine congrArg _ (funext fun a => Fin.ext ?_)
  match a with
  | ⟨0, _⟩ => show win0_0.index t (0 : Fin 2) * 128 + 1 * (y 0).val = (y 0).val; omega
  | ⟨1, _⟩ => show win0_0.index t (1 : Fin 2) * 64 + 1 * (y 1).val = (y 1).val; omega

/-- The staged codebook block at `(r, c, d)` is the codebook at `(32 t + r, c, d)`. -/
theorem wblk_apply (c : Dev nD) (t : Fin cfg0.N) (r : Fin 32) (cc : Fin 128) (d : Fin 64) (R : Fin 128)
    (hR : R.val = t.val * 32 + r.val) : wblk m c t (ix3 r cc d) = warr m c (ix3 R cc d) := by
  show V m c main_arg1 (((cfg0.win 1).blk t).view.emb (ix3 r cc d)) = V m c main_arg1 (ix3 R cc d)
  obtain ⟨-, -, e2, e3, e4, -⟩ := block_indices t
  refine congrArg _ (funext fun a => Fin.ext ?_)
  match a with
  | ⟨0, _⟩ => show win0_1.index t (0 : Fin 3) * 32 + 1 * r.val = R.val; omega
  | ⟨1, _⟩ => show win0_1.index t (1 : Fin 3) * 128 + 1 * cc.val = cc.val; omega
  | ⟨2, _⟩ => show win0_1.index t (2 : Fin 3) * 64 + 1 * d.val = d.val; omega

/-- What point `t` stores at slab index `j` is the expanded arrangement of the whole arguments at the array
    index `i` that `j` has in the result: same first and last coordinates, second coordinate `32 t + j 1`. -/
theorem point_eq (c : Dev nD) (t : Fin cfg0.N) (j : S128x32x128.Idx) (i : S128x128x128.Idx)
    (h0 : (i 0).val = (j 0).val) (h1 : (i 1).val = t.val * 32 + (j 1).val) (h2 : (i 2).val = (j 2).val) :
    k0_pay1 (F := Ideal) (xblk m c t) (wblk m c t) j = Cert.SqDist.expanded (xarr m c) (warr m c) i := by
  obtain ⟨b, r, cc, rfl⟩ : ∃ (b : Fin 128) (r : Fin 32) (cc : Fin 128), j = ix3 b r cc := ⟨j 0, j 1, j 2, eq_ix3 j⟩
  obtain ⟨B, R, C, rfl⟩ : ∃ (B : Fin 128) (R : Fin 128) (C : Fin 128), i = ix3 B R C := ⟨i 0, i 1, i 2, eq_ix3 i⟩
  have hB : B = b := Fin.ext h0
  have hC : C = cc := Fin.ext h2
  subst hB hC
  have hw : ∀ d : Fin 64, wblk m c t (ix3 r C d) = warr m c (ix3 R C d) := fun d => wblk_apply m c t r C d R h1
  have hx : ∀ d : Fin 64, xblk m c t (ix2 B d) = xarr m c (ix2 B d) := fun d => xblk_apply m c t _
  refine (Payload.pay_apply (xblk m c t) (wblk m c t) B r C).trans ?_
  simp only [hw, hx]
  rfl

/-- WHAT POINT `t` WRITES BACK is its slab of the expanded arrangement of the whole arguments. -/
theorem flushed_eq (c : Dev nD) (t : Fin cfg0.N) :
    (dats m 0 c).flushed 2 t
      = ((cfg0.win 2).blk t).view.read (Elt Ideal) (Cert.SqDist.expanded (xarr m c) (warr m c)) := by
  rw [Value.flushed2]
  unfold out0_2
  rw [View.canon_unit_zero zero_off3]
  simp only [View.ld_unit_zero (S := S128x64) zero_off2, View.ld_unit_zero (S := S32x128x64) zero_off3]
  obtain ⟨-, -, -, -, -, e5, e6, e7⟩ := block_indices t
  funext j
  show k0_pay1 (F := Ideal) (xblk m c t) (wblk m c t) j
    = Cert.SqDist.expanded (xarr m c) (warr m c) (((cfg0.win 2).blk t).view.emb j)
  refine point_eq m c t j _ ?_ ?_ ?_
  · show win0_2.index t (0 : Fin 3) * 128 + 1 * (j 0).val = (j 0).val; omega
  · show win0_2.index t (1 : Fin 3) * 32 + 1 * (j 1).val = t.val * 32 + (j 1).val; omega
  · show win0_2.index t (2 : Fin 3) * 128 + 1 * (j 2).val = (j 2).val; omega

/-- An index of the result is in point `t`'s slab iff each coordinate is in the slab's range on its axis. -/
theorem mem_blk (t : Fin cfg0.N) (i : S128x128x128.Idx) :
    i ∈ ((cfg0.win 2).blk t).view.set ↔ ∀ a : Fin 3, win0_2.index t a * S128x32x128.size a ≤ (i a).val
      ∧ (i a).val < win0_2.index t a * S128x32x128.size a + S128x32x128.size a := by
  show i ∈ ((View.whole main_v0).slice (win0_2.rect t)).set ↔ _
  rw [View.set_slice_whole, Rect.mem_set_unit]
  exact Iff.rfl

/-- The slabs cover the result: row `R` of the second axis lies in the slab of point `R / 32`. -/
theorem cover (i : S128x128x128.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 128 := (i 2).isLt
  obtain ⟨t, ht⟩ := slab_onto ⟨(i 1).val / 32, by omega⟩
  have q0 : win0_2.index t (0 : Fin 3) = 0 := congrFun ht 0
  have q1 : win0_2.index t (1 : Fin 3) = (i 1).val / 32 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 32 ≤ (i 1).val ∧ (i 1).val < win0_2.index t (1 : Fin 3) * 32 + 32; omega
  | ⟨2, _⟩ => show win0_2.index t (2 : Fin 3) * 128 ≤ (i 2).val ∧ (i 2).val < win0_2.index t (2 : Fin 3) * 128 + 128; omega

/-- THE RESULT ARRAY after the run: the expanded arrangement of the argument arrays as launched. -/
theorem final (c : Dev nD) : (dats m 0 c).arrAt 2 cfg0.N
    = Cert.SqDist.expanded (m ((c : Thread nD τ).loc main_arg0)) (m ((c : Thread nD τ).loc main_arg1)) :=
  (dats m 0 c).arrAt_eq_of_cover 2 (Cert.SqDist.expanded (xarr m c) (warr m c)) (fun t _ => flushed_eq m c t) cover

/-- The kernel's run with its result named: the expanded arrangement of the arguments, which end unchanged. -/
theorem run : θ_run defs (onTc (τ := τ) (main (F := Ideal))) ⟨m, fun _ => 0, ρ⟩ fun r => ∀ c : Dev nD,
      r.2.mem ((c : Thread nD τ).loc main_v0)
        = Cert.SqDist.expanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.FiniteEntries.lean ====
/-
  What the precondition says of the arrays: it is the conjunction, over both arguments, of "every entry's
  absolute value is below `+∞`" (each a reduction by `and` over all axes of the comparison array). On the
  extended reals `max a (-a) < ⊤` fails exactly at `a = ⊤` and `a = ⊥`, so every entry of both arrays is a real
  number.
-/
import proofs.«139237_j85040352461292_1_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

/-- The pattern `0x7F800000` denotes `+∞`. -/
theorem ofBits_inf : Ideal.ofBits .f32 0x7F800000#32 = (⊤ : EReal) := by
  simp [Ideal.ofBits, Ideal.ieee]

/-- An extended real whose absolute value compares below `+∞` is a real number. -/
theorem real_of_abs_lt_inf (a : EReal)
    (h : Ideal.cmp .olt (max a (-a)) (Ideal.ofBits .f32 0x7F800000#32) = 1#1) : ∃ r : ℝ, a = r := by
  rw [ofBits_inf] at h
  induction a using EReal.rec with
  | bot => simp [Ideal.cmp] at h
  | top => simp [Ideal.cmp] at h
  | coe r => exact ⟨r, rfl⟩

instance : Subsingleton S_.Idx := ⟨fun a b => funext fun d => d.elim0⟩

variable [Cert.Pre_finite_inputs.Facts]

/-- Under the precondition every entry of both argument arrays is a real number. -/
theorem entries_real (x : FVec Ideal S128x64 .f32) (w : FVec Ideal S128x128x64 .f32)
    (h : fn (F := Ideal) x w = fun _ => 1#1) : (∀ j, ∃ r : ℝ, x j = r) ∧ (∀ j, ∃ r : ℝ, w j = r) := by
  have h0 := congrFun h ValueIdx.ix0
  dsimp only [fn] at h0
  obtain ⟨hx, hw⟩ := IntOp.andi_eq_one.1 h0
  exact ⟨fun j => real_of_abs_lt_inf (x j) (Host.reduce_andi_all _ _ _ _ _ hx j),
    fun j => real_of_abs_lt_inf (w j) (Host.reduce_andi_all _ _ _ _ _ hw j)⟩

end Cert.Pre_finite_inputs.Finite

end
-- ==== Proof.lean ====
/-
  Squared Euclidean distances from 128 input vectors `x : [128, 64]` to the 128 × 128 vectors of a codebook
  `w : [128, 128, 64]`: the result `[128, 128, 128]` at `(b, r, c)` is the squared distance between `x (b, ·)`
  and `w (r, c, ·)`.

  The reference computes it directly, `0 + ∑ d, (w (r, c, d) - x (b, d))²` (Proof/RefDirect.lean, over the
  generated run of its host operations). The kernel never forms the differences: over a grid of four slabs of
  32 codebook rows it stores `(∑ d, w² + ∑ d, x²) - 2 · ∑ d, x · w`, the inner products by one matrix product per
  slab (Proof/KernelPayload.lean for one stored element, Proof/KernelArray.lean for the slabs tiling the result,
  over the generated frame run and its blockwise value leg). On the extended reals the expansion of the square
  holds for real entries and fails at the infinities, so the equality of the two results uses the
  precondition — every entry of both arguments finite (Proof/FiniteEntries.lean) — through the one law of
  Proof/SqDistLaw.lean.

  The three frames are the generated ones (the reference's is its run with the result dropped); the ideal pass
  rewrote nothing, so the idealization claim is `True`.
-/
import proofs.«139237_j85040352461292_1_alg».proof.Defs
import proofs.«139237_j85040352461292_1_alg».proof.Proof.Gen.Kernel
import proofs.«139237_j85040352461292_1_alg».proof.Proof.Gen.Kernel.Skeleton
import proofs.«139237_j85040352461292_1_alg».proof.Proof.Gen.Kernel.Launch
import proofs.«139237_j85040352461292_1_alg».proof.Proof.Gen.Kernel.Points
import proofs.«139237_j85040352461292_1_alg».proof.Proof.Gen.Kernel.Frame
import proofs.«139237_j85040352461292_1_alg».proof.Proof.Gen.KernelIdeal
import proofs.«139237_j85040352461292_1_alg».proof.Proof.Gen.KernelIdeal.Skeleton
import proofs.«139237_j85040352461292_1_alg».proof.Proof.Gen.KernelIdeal.Launch
import proofs.«139237_j85040352461292_1_alg».proof.Proof.Gen.KernelIdeal.Points
import proofs.«139237_j85040352461292_1_alg».proof.Proof.Gen.KernelIdeal.Frame
import proofs.«139237_j85040352461292_1_alg».proof.Proof.Gen.ReferenceIdeal
import proofs.«139237_j85040352461292_1_alg».proof.Proof.Gen.Pre_finite_inputs
import proofs.«139237_j85040352461292_1_alg».proof.Proof.Gen.KernelIdeal.Value
import proofs.«139237_j85040352461292_1_alg».proof.Proof.Gen.ReferenceIdeal.Run
import proofs.«139237_j85040352461292_1_alg».proof.Proof.Gen.ReferenceIdeal.Read
import proofs.«139237_j85040352461292_1_alg».proof.Proof.SqDistLaw
import proofs.«139237_j85040352461292_1_alg».proof.Proof.RefDirect
import proofs.«139237_j85040352461292_1_alg».proof.Proof.KernelArray
import proofs.«139237_j85040352461292_1_alg».proof.Proof.FiniteEntries
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result's equation dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result is the expanded arrangement of the squared distances, the reference's the direct one, of
    arguments that agree; the precondition makes every entry a real number, and on real entries the two
    arrangements are one function. -/
theorem algebraic : Cert.algebraic_KernelIdeal_ReferenceIdeal := by
  intro m ρ m' ρ' hpre hagree
  refine ⟨fun c => Cert.SqDist.expanded (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Finite.entries_real _ _ (hpre c)
  rw [Cert.ReferenceIdeal.Read.val_main_v6_eq, Cert.ReferenceIdeal.RefValue.result_direct, (hagree c).1, (hagree c).2]
  exact (Cert.SqDist.expanded_eq_direct _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
